-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x2 : Shape := ⟨2, ![1600000, 2]⟩
abbrev S1600000 : Shape := ⟨1, ![1600000]⟩
abbrev S1600000x64 : Shape := ⟨2, ![1600000, 64]⟩
abbrev S100000x1 : Shape := ⟨2, ![100000, 1]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S100000x1 : S_.BroadcastsInDim S100000x1 (![] : Fin 0 → Fin S100000x1.rank)
  reducesTo_S100000x1_S_d0_1 : S100000x1.ReducesTo [0, 1] S_

variable [Facts]

def fn {F : FTy → Type} [FloatOps F] (main_arg0 : IVec S1600000x2 32) (main_arg1 : FVec F S1600000 .f32) (main_arg2 : FVec F S1600000x64 .f32) (main_arg3 : FVec F S100000x1 .f32) : IVec S_ 1 :=
  let main_v0 : FVec F S1600000 .f32 := Host.absf main_arg1
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S100000x1 .f32 := Host.absf main_arg3
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  main_v13
-- ==== Kernel.lean ====
abbrev S1600000x2 : Shape := ⟨2, ![1600000, 2]⟩
abbrev S1600000 : Shape := ⟨1, ![1600000]⟩
abbrev S1600000x64 : Shape := ⟨2, ![1600000, 64]⟩
abbrev S100000x1 : Shape := ⟨2, ![100000, 1]⟩
abbrev S1600000x1 : Shape := ⟨2, ![1600000, 1]⟩
abbrev S10000x64 : Shape := ⟨2, ![10000, 64]⟩
abbrev S10000x1 : Shape := ⟨2, ![10000, 1]⟩
abbrev S_ : Shape := ⟨0, ![]⟩
abbrev S100000x64 : Shape := ⟨2, ![100000, 64]⟩

abbrev nBuf : Space → Nat
  | .hbm => 13
  | .vmem => 12
  | .smem => 0
  | _ => 0

abbrev bufTy : (tb : Table) → Fin (tcTables nBuf tb) → BufTy
  | .hbm, ⟨0, _⟩ => ⟨S1600000x2, .i32⟩
  | .hbm, ⟨1, _⟩ => ⟨S1600000, .f32⟩
  | .hbm, ⟨2, _⟩ => ⟨S1600000x64, .f32⟩
  | .hbm, ⟨3, _⟩ => ⟨S100000x1, .f32⟩
  | .hbm, ⟨4, _⟩ => ⟨S1600000x1, .f32⟩
  | .hbm, ⟨5, _⟩ => ⟨S1600000x64, .f32⟩
  | .hbm, ⟨6, _⟩ => ⟨S1600000x1, .i32⟩
  | .hbm, ⟨7, _⟩ => ⟨S1600000, .i32⟩
  | .hbm, ⟨8, _⟩ => ⟨S_, .f32⟩
  | .hbm, ⟨9, _⟩ => ⟨S100000x64, .f32⟩
  | .hbm, ⟨10, _⟩ => ⟨S1600000x1, .i32⟩
  | .hbm, ⟨11, _⟩ => ⟨S100000x64, .f32⟩
  | .hbm, ⟨12, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x1, .f32⟩
  | .local _ .vmem, ⟨9, _⟩ => ⟨S10000x1, .f32⟩
  | .local _ .vmem, ⟨10, _⟩ => ⟨S10000x64, .f32⟩
  | .local _ .vmem, ⟨11, _⟩ => ⟨S10000x64, .f32⟩
  | _, _ => ⟨S1600000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S1600000_S1600000x1 : S1600000.ShapeCasts S1600000x1
  inb_S10000x64_S10000x64_0_0 : ∀ a, (![0, 0] : Fin 2 → Nat) a + S10000x64.size a ≤ S10000x64.size a
  h_S10000x64 : 0 < S10000x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  slices_S1600000x2_S1600000x1_0_0 : S1600000x2.Slices ![0, 0] S1600000x1
  shapeCasts_S1600000x1_S1600000 : S1600000x1.ShapeCasts S1600000
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  shapeCasts_S10000x64_S10000x64 : S10000x64.ShapeCasts S10000x64
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1600000x64.size a
  hwx0_0 : ∀ i : grid0.Coords, EltTy.bits .f32 = 32 ∨ (Rect.block (s := S1600000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S1600000x1.size a
  hwx0_1 : ∀ i : grid0.Coords, EltTy.bits .f32 = 32 ∨ (Rect.block (s := S1600000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S1600000x64.size a
  hwx0_2 : ∀ i : grid0.Coords, EltTy.bits .f32 = 32 ∨ (Rect.block (s := S1600000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg2) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1600000x2 : Shape := ⟨2, ![1600000, 2]⟩
abbrev S1600000 : Shape := ⟨1, ![1600000]⟩
abbrev S1600000x64 : Shape := ⟨2, ![1600000, 64]⟩
abbrev S100000x1 : Shape := ⟨2, ![100000, 1]⟩
abbrev S1600000x1 : Shape := ⟨2, ![1600000, 1]⟩
abbrev S_ : Shape := ⟨0, ![]⟩
abbrev S100000x64 : Shape := ⟨2, ![100000, 64]⟩

abbrev nBuf : Space → Nat
  | .hbm => 15
  | .vmem => 0
  | .smem => 0
  | _ => 0

abbrev bufTy : (tb : Table) → Fin (tcTables nBuf tb) → BufTy
  | .hbm, ⟨0, _⟩ => ⟨S1600000x2, .i32⟩
  | .hbm, ⟨1, _⟩ => ⟨S1600000, .f32⟩
  | .hbm, ⟨2, _⟩ => ⟨S1600000x64, .f32⟩
  | .hbm, ⟨3, _⟩ => ⟨S100000x1, .f32⟩
  | .hbm, ⟨4, _⟩ => ⟨S1600000x1, .f32⟩
  | .hbm, ⟨5, _⟩ => ⟨S1600000x64, .f32⟩
  | .hbm, ⟨6, _⟩ => ⟨S1600000x64, .f32⟩
  | .hbm, ⟨7, _⟩ => ⟨S1600000x1, .i32⟩
  | .hbm, ⟨8, _⟩ => ⟨S1600000, .i32⟩
  | .hbm, ⟨9, _⟩ => ⟨S_, .f32⟩
  | .hbm, ⟨10, _⟩ => ⟨S100000x64, .f32⟩
  | .hbm, ⟨11, _⟩ => ⟨S1600000x1, .i32⟩
  | .hbm, ⟨12, _⟩ => ⟨S100000x64, .f32⟩
  | .hbm, ⟨13, _⟩ => ⟨S100000x64, .f32⟩
  | .hbm, ⟨14, _⟩ => ⟨S100000x64, .f32⟩
  | _, _ => ⟨S1600000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  slices_S1600000x2_S1600000x1_0_0 : S1600000x2.Slices ![0, 0] S1600000x1
  shapeCasts_S1600000x1_S1600000 : S1600000x1.ShapeCasts S1600000
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  scatter_S100000x64_S1600000x1_S1600000x64_1_0_0_1_wf : ScatterDims.WF S100000x64 S1600000x1 S1600000x64 [1] [0] [0] 1

variable [Facts₀]

def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Weighted.lean ====
/-
  The first kernel region: every edge's 64 class values are multiplied by that edge's weight.

  Grid point `t` (of 160) handles the edge rows 10000·t … 10000·t + 9999. It reads that block of the value array
  and the same rows of the one-column weight array, multiplies each of a row's 64 values by the row's weight, and
  writes the products back to the same rows of the output array. The 160 blocks tile the 1,600,000 rows, so when
  the region ends its output array holds, entry by entry, `value[e, k] · weight[e, 0]` of the arrays the region
  found on entry. Nothing here depends on how a float is read: the statement is about any instance.
-/
import proofs.«129529_j37031208026271_1_alg».proof.Proof.Gen.KernelIdeal.Frame
import Idealize.ShloMosaic.Lib.Pipeline.Value

set_option maxRecDepth 16384

noncomputable section

namespace Cert.KernelIdeal.Weighted

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The corner every access of the body starts from. -/
theorem origin : (![0, 0] : Fin 2 → Nat) = fun _ => 0 := funext fun a => by fin_cases a <;> rfl

/-- Where row `i 0`'s weight sits in the one-column weight array. -/
abbrev weightAt (i : S1600000x64.Idx) : S1600000x1.Idx := fun a => match a with
  | ⟨0, _⟩ => ⟨(i 0).val, (i 0).isLt⟩
  | ⟨1, _⟩ => ⟨0, Nat.one_pos⟩

/-- The same inside one block of 10000 rows. -/
abbrev weightAtBlk (j : S10000x64.Idx) : S10000x1.Idx := fun a => match a with
  | ⟨0, _⟩ => ⟨(j 0).val, (j 0).isLt⟩
  | ⟨1, _⟩ => ⟨0, Nat.one_pos⟩

/-- The weighted edge values as ONE function of the value array and the weight column. -/
def weighted (x : S1600000x64.Idx → Elt F .f32) (w : S1600000x1.Idx → Elt F .f32) : S1600000x64.Idx → Elt F .f32 :=
  fun i => FloatOps.mulf (x i) (w (weightAt i))

/-- The body's product at an entry of the block: the value there times the weight of its row (the weight block is
    recast to its own shape, which changes nothing, and repeated along the 64 columns). -/
theorem pay_apply (x0 : Vec F S10000x64 .f32) (x1 : Vec F S10000x1 .f32) (j : S10000x64.Idx) :
    k0_pay1 x0 x1 j = FloatOps.mulf (x0 j) (x1 (weightAtBlk j)) := by
  unfold k0_pay1
  show FloatOps.mulf (x0 j) (broadcastTo S10000x64 (shapeCast S10000x1 x1 shapeCasts_S10000x1_S10000x1) broadcasts_S10000x1_S10000x64 j) = _
  rw [shapeCast_self, broadcastTo_apply x1 broadcasts_S10000x1_S10000x64 j (weightAtBlk j) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])]

/-- All three windows move together: at point `t` each is at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the weighted values of the arrays as the region finds them. -/
theorem flushed_eq (c : Dev nD) (t : Fin cfg0.N) :
    (dat0 V c).flushed 2 t = ((cfg0.win 2).blk t).view.read (Elt F) (weighted (V c main_arg2) (V c main_v0)) := by
  show (cfg0.win 2).cut (grid0.coords t) ((dat0 V c).after 2 t) = _
  rw [after0_2]
  unfold out0_2
  rw [View.canon_unit_zero origin]
  simp only [View.ld_unit_zero (S := S10000x64) origin, View.ld_unit_zero (S := S10000x1) origin]
  obtain ⟨e0, e1, e2, e3, e4, e5⟩ := idx_facts t
  funext j
  show k0_pay1 (iblk0 V c 0 t) (iblk0 V c 1 t) j = weighted (V c main_arg2) (V c main_v0) (((cfg0.win 2).blk t).view.emb j)
  refine (pay_apply (iblk0 V c 0 t) (iblk0 V c 1 t) j).trans ?_
  show FloatOps.mulf (V c main_arg2 (((cfg0.win 0).blk t).view.emb j)) (V c main_v0 (((cfg0.win 1).blk t).view.emb (weightAtBlk j)))
    = FloatOps.mulf (V c main_arg2 (((cfg0.win 2).blk t).view.emb j)) (V c main_v0 (weightAt (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (weightAtBlk j) = weightAt (((cfg0.win 2).blk t).view.emb j) := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 1 + 1 * 0 = 0; omega
  rw [h0, h1]

/-- An entry of the output array is in point `t`'s block iff each coordinate is in the block's range on its axis. -/
theorem mem_blk (t : Fin cfg0.N) (i : S1600000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v1).slice (win0_2.rect t)).set ↔ _
  rw [View.set_slice_whole, Rect.mem_set_unit]
  exact Iff.rfl

/-- Every entry is in some point's block: row `e` belongs to point `e / 10000`. -/
theorem cover (i : S1600000x64.Idx) :
    ∃ t : Fin cfg0.N, (cfg0.win 2).flush t = true ∧ i ∈ ((cfg0.win 2).blk t).view.set := by
  have hi0 : (i 0).val < 1600000 := (i 0).isLt
  have hi1 : (i 1).val < 64 := (i 1).isLt
  have hN : (i 0).val / 10000 < cfg0.N := by
    show (i 0).val / 10000 < grid0.N
    rw [N_0]; omega
  refine ⟨⟨(i 0).val / 10000, hN⟩, flush0_2 _, ?_⟩
  rw [mem_blk]
  obtain ⟨e0, e1, e2, e3, e4, e5⟩ := idx_facts ⟨(i 0).val / 10000, hN⟩
  have e4' : win0_2.index ⟨(i 0).val / 10000, hN⟩ (0 : Fin 2) = (i 0).val / 10000 := e4
  intro a
  match a with
  | ⟨0, _⟩ => show win0_2.index ⟨(i 0).val / 10000, hN⟩ (0 : Fin 2) * 10000 ≤ (i 0).val ∧ (i 0).val < win0_2.index ⟨(i 0).val / 10000, hN⟩ (0 : Fin 2) * 10000 + 10000; omega
  | ⟨1, _⟩ => show win0_2.index ⟨(i 0).val / 10000, hN⟩ (1 : Fin 2) * 64 ≤ (i 1).val ∧ (i 1).val < win0_2.index ⟨(i 0).val / 10000, hN⟩ (1 : Fin 2) * 64 + 64; omega

/-- THE OUTPUT ARRAY after the region: the weighted values of the value array and the weight column as the region
    found them. -/
theorem final (c : Dev nD) :
    (dat0 V c).arrAt 2 cfg0.N = weighted (V c main_arg2) (V c main_v0) :=
  (dat0 V c).arrAt_eq_of_cover 2 (weighted (V c main_arg2) (V c main_v0)) (fun t _ => flushed_eq V c t) cover

end Cert.KernelIdeal.Weighted

end
-- ==== Proof.Normalized.lean ====
/-
  The second kernel region: every node's 64 accumulated values are divided by that node's divisor.

  Grid point `t` (of 10) handles the node rows 10000·t … 10000·t + 9999. It reads that block of the accumulated array
  and the same rows of the one-column divisor array, divides each of a row's 64 values by the row's divisor, and
  writes the quotients back to the same rows of the output array. The 10 blocks tile the 100,000 rows, so when the
  region ends its output array holds, entry by entry, `acc[n, k] / divisor[n, 0]` of the arrays the region found on
  entry. The statement is about any reading of a float.
-/
import proofs.«129529_j37031208026271_1_alg».proof.Proof.Gen.KernelIdeal.Frame
import Idealize.ShloMosaic.Lib.Pipeline.Value

set_option maxRecDepth 16384

noncomputable section

namespace Cert.KernelIdeal.Normalized

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The corner every access of the body starts from. -/
theorem origin : (![0, 0] : Fin 2 → Nat) = fun _ => 0 := funext fun a => by fin_cases a <;> rfl

/-- Where row `i 0`'s divisor sits in the one-column divisor array. -/
abbrev divisorAt (i : S100000x64.Idx) : S100000x1.Idx := fun a => match a with
  | ⟨0, _⟩ => ⟨(i 0).val, (i 0).isLt⟩
  | ⟨1, _⟩ => ⟨0, Nat.one_pos⟩

/-- The same inside one block of 10000 rows. -/
abbrev divisorAtBlk (j : S10000x64.Idx) : S10000x1.Idx := fun a => match a with
  | ⟨0, _⟩ => ⟨(j 0).val, (j 0).isLt⟩
  | ⟨1, _⟩ => ⟨0, Nat.one_pos⟩

/-- The per-node quotients as ONE function of the accumulated array and the divisor column. -/
def normalized (x : S100000x64.Idx → Elt F .f32) (d : S100000x1.Idx → Elt F .f32) : S100000x64.Idx → Elt F .f32 :=
  fun i => FloatOps.divf (x i) (d (divisorAt i))

/-- The body's quotient at an entry of the block: the value there over the divisor of its row (the value block is
    recast to its own shape, which changes nothing; the divisor block is repeated along the 64 columns). -/
theorem pay_apply (x0 : Vec F S10000x64 .f32) (x1 : Vec F S10000x1 .f32) (j : S10000x64.Idx) :
    k1_pay1 x0 x1 j = FloatOps.divf (x0 j) (x1 (divisorAtBlk j)) := by
  unfold k1_pay1
  show FloatOps.divf (shapeCast S10000x64 x0 shapeCasts_S10000x64_S10000x64 j) (broadcastTo S10000x64 x1 broadcasts_S10000x1_S10000x64 j) = _
  rw [shapeCast_self, broadcastTo_apply x1 broadcasts_S10000x1_S10000x64 j (divisorAtBlk j) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])]

/-- All three windows move together: at point `t` each is at block row `t`, block column 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the quotients of the arrays as the region finds them. -/
theorem flushed_eq (c : Dev nD) (t : Fin cfg1.N) :
    (dat1 V c).flushed 2 t = ((cfg1.win 2).blk t).view.read (Elt F) (normalized (V c main_v6) (V c main_arg3)) := by
  show (cfg1.win 2).cut (grid1.coords t) ((dat1 V c).after 2 t) = _
  rw [after1_2]
  unfold out1_2
  rw [View.canon_unit_zero origin]
  simp only [View.ld_unit_zero (S := S10000x64) origin, View.ld_unit_zero (S := S10000x1) origin]
  obtain ⟨e0, e1, e2, e3, e4, e5⟩ := idx_facts t
  funext j
  show k1_pay1 (iblk1 V c 0 t) (iblk1 V c 1 t) j = normalized (V c main_v6) (V c main_arg3) (((cfg1.win 2).blk t).view.emb j)
  refine (pay_apply (iblk1 V c 0 t) (iblk1 V c 1 t) j).trans ?_
  show FloatOps.divf (V c main_v6 (((cfg1.win 0).blk t).view.emb j)) (V c main_arg3 (((cfg1.win 1).blk t).view.emb (divisorAtBlk j)))
    = FloatOps.divf (V c main_v6 (((cfg1.win 2).blk t).view.emb j)) (V c main_arg3 (divisorAt (((cfg1.win 2).blk t).view.emb j)))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (divisorAtBlk j) = divisorAt (((cfg1.win 2).blk t).view.emb j) := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  rw [h0, h1]

/-- An entry of the output array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v7).slice (win1_2.rect t)).set ↔ _
  rw [View.set_slice_whole, Rect.mem_set_unit]
  exact Iff.rfl

/-- Every entry is in some point's block: row `n` belongs to point `n / 10000`. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 10000 < cfg1.N := by
    show (i 0).val / 10000 < grid1.N
    rw [N_1]; omega
  refine ⟨⟨(i 0).val / 10000, hN⟩, flush1_2 _, ?_⟩
  rw [mem_blk]
  obtain ⟨e0, e1, e2, e3, e4, e5⟩ := idx_facts ⟨(i 0).val / 10000, hN⟩
  have e4' : win1_2.index ⟨(i 0).val / 10000, hN⟩ (0 : Fin 2) = (i 0).val / 10000 := e4
  intro a
  match a with
  | ⟨0, _⟩ => show win1_2.index ⟨(i 0).val / 10000, hN⟩ (0 : Fin 2) * 10000 ≤ (i 0).val ∧ (i 0).val < win1_2.index ⟨(i 0).val / 10000, hN⟩ (0 : Fin 2) * 10000 + 10000; omega
  | ⟨1, _⟩ => show win1_2.index ⟨(i 0).val / 10000, hN⟩ (1 : Fin 2) * 64 ≤ (i 1).val ∧ (i 1).val < win1_2.index ⟨(i 0).val / 10000, hN⟩ (1 : Fin 2) * 64 + 64; omega

/-- THE OUTPUT ARRAY after the region: the quotients of the accumulated array and the divisor column as the region
    found them. -/
theorem final (c : Dev nD) :
    (dat1 V c).arrAt 2 cfg1.N = normalized (V c main_v6) (V c main_arg3) :=
  (dat1 V c).arrAt_eq_of_cover 2 (normalized (V c main_v6) (V c main_arg3)) (fun t _ => flushed_eq V c t) cover

end Cert.KernelIdeal.Normalized

end
-- ==== Proof.Stretches.lean ====
/-
  What the host operations around the two kernel regions compute, and what each region therefore finds on entry.

  Before the first region the host only recasts the weight vector to a one-column array. Between the regions it
  takes the source column of the edge array, recasts it to a vector, repeats it as a one-column index array, makes a
  zero array of 100,000 × 64, and adds every row of the first region's output into the row of the zero array that the
  edge's source index names. That accumulation is carried here as ONE function `accumulate` of the edge array and the
  rows to add: nothing below looks inside it. The argument arrays are written by no operation and by no region.
-/
import proofs.«129529_j37031208026271_1_alg».proof.Proof.Gen.KernelIdeal.Frame
import Idealize.ShloMosaic.Lib.StableHlo.Run

set_option maxRecDepth 16384

noncomputable section

namespace Cert.KernelIdeal.Stretches

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The weight vector as the one-column array the first region reads. -/
def weightColumn (w : (⟨S1600000, .f32⟩ : BufTy).Contents (Elt F)) : (⟨S1600000x1, .f32⟩ : BufTy).Contents (Elt F) :=
  shapeCast S1600000x1 w shapeCasts_S1600000_S1600000x1

/-- The host's accumulation: from a zero array, row `e` of `u` is added into the row that the source entry of edge
    `e` names. One function of the edge array and of the rows added; never opened. -/
def accumulate (e : (⟨S1600000x2, .i32⟩ : BufTy).Contents (Elt F)) (u : (⟨S1600000x64, .f32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0
      (shapeCast S1600000 (extractStridedSlice S1600000x1 ![0, 0] e slices_S1600000x2_S1600000x1_0_0) shapeCasts_S1600000x1_S1600000))
    u

/-! ## Entering the first region -/

/-- The value array is the argument as launched. -/
theorem entry0_values (c : Dev nD) : V1 m ρ c main_arg2 = m ((c : Thread nD τ).loc main_arg2) := by
  show StableHlo.after hostOps0 (W0 m ρ c) (Proc.devRef .tc main_arg2) = _
  after_results

/-- The weight column is the recast weight vector. -/
theorem entry0_weights (c : Dev nD) : V1 m ρ c main_v0 = weightColumn (m ((c : Thread nD τ).loc main_arg1)) := by
  show StableHlo.after hostOps0 (W0 m ρ c) (Proc.devRef .tc main_v0) = _
  after_results
  rfl

/-! ## Leaving the first region -/

/-- The region's output array holds what its write-backs leave. -/
theorem exit0_output (c : Dev nD) : W2 m ρ c (Proc.devRef .tc main_v1) = (dat0 (V1 m ρ) c).arrAt 2 cfg0.N :=
  W2_arr m ρ c 2

/-- The edge array is still the argument as launched. -/
theorem exit0_edges (c : Dev nD) : W2 m ρ c (Proc.devRef .tc main_arg0) = m ((c : Thread nD τ).loc main_arg0) := by
  refine (W2_of_ne m ρ c main_arg0 (by decide)).trans ?_
  show StableHlo.after hostOps0 (W0 m ρ c) (Proc.devRef .tc main_arg0) = _
  after_results

/-- The divisor column is still the argument as launched. -/
theorem exit0_divisors (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results

/-! ## Entering the second region -/

/-- The accumulated array: the host's accumulation of the first region's output along the edge array. -/
theorem entry1_accumulated (c : Dev nD) :
    V3 m ρ c main_v6 = accumulate (W2 m ρ c (Proc.devRef .tc main_arg0)) (W2 m ρ c (Proc.devRef .tc main_v1)) := by
  show StableHlo.after hostOps1 (W2 m ρ c) (Proc.devRef .tc main_v6) = _
  after_results
  rfl

/-- The divisor column is what it was when the first region ended. -/
theorem entry1_divisors (c : Dev nD) : V3 m ρ c main_arg3 = W2 m ρ c (Proc.devRef .tc main_arg3) := by
  show StableHlo.after hostOps1 (W2 m ρ c) (Proc.devRef .tc main_arg3) = _
  after_results

end Cert.KernelIdeal.Stretches

end
-- ==== Proof.KernelValue.lean ====
/-
  The idealized kernel program's result as ONE function of its four argument arrays.

  The first region leaves `value[e, k] · weight[e]` in its output array; the host adds those rows into the node rows
  that the edges' source indices name; the second region divides every node row by that node's divisor. Each step
  reads only what the step before left and the argument arrays, which nothing writes. Composed: the result array
  ends at `(Σ over the edges e with source n of value[e, k] · weight[e]) / divisor[n]`, with the sum carried as the
  host's own accumulation, unopened.
-/
import proofs.«129529_j37031208026271_1_alg».proof.Proof.KernelRun
import proofs.«129529_j37031208026271_1_alg».proof.Proof.Weighted
import proofs.«129529_j37031208026271_1_alg».proof.Proof.Normalized
import proofs.«129529_j37031208026271_1_alg».proof.Proof.Stretches

set_option maxRecDepth 16384

noncomputable section

namespace Cert.KernelIdeal.Whole

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The program's first result from the edge array `e`, the weight vector `w`, the value array `x` and the divisor
    column `d`: weight the edge rows, accumulate them per source node, divide each node row by its divisor. -/
def result (e : (⟨S1600000x2, .i32⟩ : BufTy).Contents (Elt F)) (w : (⟨S1600000, .f32⟩ : BufTy).Contents (Elt F))
    (x : (⟨S1600000x64, .f32⟩ : BufTy).Contents (Elt F)) (d : (⟨S100000x1, .f32⟩ : BufTy).Contents (Elt F)) :
    (⟨S100000x64, .f32⟩ : BufTy).Contents (Elt F) :=
  Normalized.normalized (Stretches.accumulate e (Weighted.weighted x (Stretches.weightColumn w))) d

/-- What the second region's write-backs leave in the result array is that function of the launch contents: each
    region's output is its whole-array function of what it found, and what it found is read back through the host
    operations to the arguments and to the region before. -/
theorem final (c : Dev nD) :
    (dat1 (V3 m ρ) c).arrAt 2 cfg1.N
      = result (m ((c : Thread nD τ).loc main_arg0)) (m ((c : Thread nD τ).loc main_arg1))
          (m ((c : Thread nD τ).loc main_arg2)) (m ((c : Thread nD τ).loc main_arg3)) := by
  rw [Normalized.final (V3 m ρ) c, Stretches.entry1_accumulated m ρ c, Stretches.entry1_divisors m ρ c,
    Stretches.exit0_divisors m ρ c, Stretches.exit0_edges m ρ c, Stretches.exit0_output m ρ c,
    Weighted.final (V1 m ρ) c, Stretches.entry0_values m ρ c, Stretches.entry0_weights m ρ c]
  rfl

/-- The run, read: every weakly fair execution terminates without a fault, the result array at `result` of the
    arguments as launched, the arguments unchanged. -/
theorem run : θ_run defs (onTc (τ := τ) (main (F := F))) ⟨m, fun _ => 0, ρ⟩ (fun r => ∀ c : Dev nD,
      r.2.mem ((c.tc : Thread nD τ).loc main_v7)
        = result (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (final m ρ c), (h c).2⟩) (Launched.run_named m ρ)

end Cert.KernelIdeal.Whole

end
-- ==== Proof.Bridge.lean ====
/-
  The reference computes the same function. Over the extended reals:

  * the reference's product array is `value[e, k] · weight[e]` read through two broadcasts of the weight vector; the
    kernel program's is the same product read through the weight vector recast as a column. Both name entry `e` of the
    weight vector, so the two product arrays are equal entry by entry;
  * both programs then add those rows into the node rows named by the edges' source column, by the same host
    accumulation applied to the same zero array and the same index array: equal arguments, equal results, without
    looking at how the accumulation sums;
  * both divide node row `n` by `divisor[n, 0]`; the host's quotient and a kernel's are one operation on the
    extended reals.

  No law of arithmetic is used, so nothing here needs the inputs to be finite.
-/
import proofs.«129529_j37031208026271_1_alg».proof.Proof.KernelValue
import proofs.«129529_j37031208026271_1_alg».proof.Proof.Gen.ReferenceIdeal.Read
import Idealize.ShloMosaic.PureOps.Ideal

set_option maxRecDepth 16384

noncomputable section

namespace Cert.Bridge

open Idealize.ShloMosaic Idealize.ShloMosaic.TcCoe Idealize.SL.Sem
open Cert.ReferenceIdeal.Read

/-- The rows to be accumulated agree: entry `[e, k]` of either is `value[e, k] · weight[e]`. -/
theorem rows_eq (w : (⟨Cert.ReferenceIdeal.S1600000, .f32⟩ : BufTy).Contents (Elt Ideal))
    (x : (⟨Cert.ReferenceIdeal.S1600000x64, .f32⟩ : BufTy).Contents (Elt Ideal)) :
    val_main_v2 (F := Ideal) w x
      = Cert.KernelIdeal.Weighted.weighted (F := Ideal) x (Cert.KernelIdeal.Stretches.weightColumn (F := Ideal) w) := by
  funext j
  rw [val_main_v2_apply, val_main_v1_apply, val_main_v0_apply]
  unfold Cert.KernelIdeal.Weighted.weighted Cert.KernelIdeal.Stretches.weightColumn
  rw [shapeCast_apply w Cert.KernelIdeal.Gen.shapeCasts_S1600000_S1600000x1 (Cert.KernelIdeal.Weighted.weightAt j) (idx_main_v0 (idx_main_v1 j))
    (by rewrite [Shape.rowMajor_val_one, Shape.rowMajor_val_two]; show (j 0).val = (j 0).val * 1 + 0; omega)]

/-- The two programs' accumulations are one function: the same scatter dimensions, the same zero array, the same
    index array made from the edges' source column. -/
theorem accumulate_eq (e : (⟨Cert.ReferenceIdeal.S1600000x2, .i32⟩ : BufTy).Contents (Elt Ideal))
    (w : (⟨Cert.ReferenceIdeal.S1600000, .f32⟩ : BufTy).Contents (Elt Ideal))
    (x : (⟨Cert.ReferenceIdeal.S1600000x64, .f32⟩ : BufTy).Contents (Elt Ideal)) :
    val_main_v7 (F := Ideal) e w x
      = Cert.KernelIdeal.Stretches.accumulate (F := Ideal) e (val_main_v2 (F := Ideal) w x) := rfl

/-- THE TWO RESULTS ARE ONE FUNCTION of the four argument arrays. -/
theorem result_eq (e : (⟨Cert.ReferenceIdeal.S1600000x2, .i32⟩ : BufTy).Contents (Elt Ideal))
    (w : (⟨Cert.ReferenceIdeal.S1600000, .f32⟩ : BufTy).Contents (Elt Ideal))
    (x : (⟨Cert.ReferenceIdeal.S1600000x64, .f32⟩ : BufTy).Contents (Elt Ideal))
    (d : (⟨Cert.ReferenceIdeal.S100000x1, .f32⟩ : BufTy).Contents (Elt Ideal)) :
    val_main_v9 (F := Ideal) e w x d = Cert.KernelIdeal.Whole.result (F := Ideal) e w x d := by
  funext i
  rw [val_main_v9_apply, val_main_v8_apply, accumulate_eq, rows_eq]
  rfl

end Cert.Bridge

end
-- ==== Proof.lean ====
/-
  An edge-weighted aggregation over a graph: `value[e, k] · weight[e]` for each of 1,600,000 edges and 64 classes,
  summed into the node each edge starts from (100,000 nodes), each node row then divided by that node's divisor.
  The kernel program does the multiplication and the division in two pipelined kernel regions of row blocks and
  leaves the summation to the host; the reference does all three on the host.

  Over the extended reals the two compute one function of the four argument arrays (Proof/Bridge.lean): the
  products agree entry by entry, the host summation is the same operation applied to equal arguments, and a
  kernel's quotient and the host's are one operation. The kernel program's result array is read off its run region
  by region (Proof/Weighted.lean, Proof/Normalized.lean: each region's output array is one whole-array function of
  what the region found on entry, because its row blocks tile the array; Proof/Stretches.lean: what the host
  operations put there; Proof/KernelValue.lean: the three composed, over the run of Proof/KernelRun.lean). The
  reference's result is its generated run.

  The frames of the two kernel programs are the generated ones; the reference's frame is its run with the result
  dropped. The idealization rewrote no operation, so there is nothing to preserve. No step uses a law that fails at
  an infinity, so the precondition (finite inputs) is never opened.
-/
import proofs.«129529_j37031208026271_1_alg».proof.Defs
import proofs.«129529_j37031208026271_1_alg».proof.Proof.Gen.Kernel
import proofs.«129529_j37031208026271_1_alg».proof.Proof.Gen.Kernel.Frame
import proofs.«129529_j37031208026271_1_alg».proof.Proof.Gen.KernelIdeal
import proofs.«129529_j37031208026271_1_alg».proof.Proof.Gen.KernelIdeal.Frame
import proofs.«129529_j37031208026271_1_alg».proof.Proof.Gen.ReferenceIdeal
import proofs.«129529_j37031208026271_1_alg».proof.Proof.Gen.ReferenceIdeal.Run
import proofs.«129529_j37031208026271_1_alg».proof.Proof.Gen.ReferenceIdeal.Read
import proofs.«129529_j37031208026271_1_alg».proof.Proof.Gen.Pre_finite_inputs
import proofs.«129529_j37031208026271_1_alg».proof.Proof.KernelValue
import proofs.«129529_j37031208026271_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- The idealization rewrote nothing. -/
theorem preserves : Cert.preserves_Kernel_KernelIdeal := trivial

/-- From memories that agree on the arguments both programs end, the first result of each at the one function
    `Whole.result` of the arguments (the kernel program by its run read region by region, the reference by its
    generated run and `Bridge.result_eq`), the second result of each the value array itself. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, (θ_run Cert.KernelIdeal.defs _ _).mono (fun _ h c => ⟨(h c).1, (h c).2.2.2.1, (h c).2⟩)
    (Cert.KernelIdeal.Whole.run (F := Ideal) m ρ), ?_⟩
  refine (θ_run Cert.ReferenceIdeal.defs _ _).mono
    (fun _ h c => ⟨(h c).1.trans ?_, (h c).2.1.trans (hagree c).2.2.1, (h c).2.2⟩)
    (Cert.ReferenceIdeal.Value.run (F := Ideal) m' ρ')
  rw [Cert.ReferenceIdeal.Read.val_main_v9_eq, (hagree c).1, (hagree c).2.1, (hagree c).2.2.1, (hagree c).2.2.2]
  exact Cert.Bridge.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
